-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512 : Shape := ⟨1, ![512]⟩
abbrev S4x512x512 : Shape := ⟨3, ![4, 512, 512]⟩
abbrev S4x512 : Shape := ⟨2, ![4, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512 : S_.BroadcastsInDim S512 (![] : Fin 0 → Fin S512.rank)
  reducesTo_S512_S_d0 : S512.ReducesTo [0] S_
  bcast_S_S4x512x512 : S_.BroadcastsInDim S4x512x512 (![] : Fin 0 → Fin S4x512x512.rank)
  reducesTo_S4x512x512_S_d0_1_2 : S4x512x512.ReducesTo [0, 1, 2] S_
  bcast_S_S4x512 : S_.BroadcastsInDim S4x512 (![] : Fin 0 → Fin S4x512.rank)
  reducesTo_S4x512_S_d0_1 : S4x512.ReducesTo [0, 1] S_

variable [Facts]

def fn_part1 {F : FTy → Type} [FloatOps F] (main_arg4 : FVec F S512x512 .f32) (main_arg5 : FVec F S4x512x512 .f32) (main_arg6 : FVec F S4x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S4x512x512 .f32 := Host.absf main_arg5
  let main_cst_8 : FVec F S_ .f32 := constant S_ .f32 0x7F800000#32
  let main_v25 : FVec F S4x512x512 .f32 := broadcastInDim S4x512x512 ![] bcast_S_S4x512x512 main_cst_8
  let main_v26 : IVec S4x512x512 1 := cmpf .olt main_v24 main_v25
  let main_c_9 : IVec S_ 1 := constantI S_ 1 1#1
  let main_v27 : IVec S_ 1 := (fun x v => Host.reduce IntOp.andi x v reducesTo_S4x512x512_S_d0_1_2 h_S_) main_v26 main_c_9
  let main_v28 : IVec S_ 1 := andi main_v23 main_v27
  let main_v29 : FVec F S4x512 .f32 := Host.absf main_arg6
  let main_cst_10 : FVec F S_ .f32 := constant S_ .f32 0x7F800000#32
  let main_v30 : FVec F S4x512 .f32 := broadcastInDim S4x512 ![] bcast_S_S4x512 main_cst_10
  let main_v31 : IVec S4x512 1 := cmpf .olt main_v29 main_v30
  let main_c_11 : IVec S_ 1 := constantI S_ 1 1#1
  let main_v32 : IVec S_ 1 := (fun x v => Host.reduce IntOp.andi x v reducesTo_S4x512_S_d0_1 h_S_) main_v31 main_c_11
  let main_v33 : IVec S_ 1 := andi main_v28 main_v32
  main_v33

def fn {F : FTy → Type} [FloatOps F] (main_arg0 : FVec F S512x512 .f32) (main_arg1 : FVec F S512x512 .f32) (main_arg2 : FVec F S512 .f32) (main_arg3 : FVec F S512x512 .f32) (main_arg4 : FVec F S512x512 .f32) (main_arg5 : FVec F S4x512x512 .f32) (main_arg6 : FVec F S4x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S512x512 : Shape := ⟨2, ![512, 512]⟩
abbrev S512 : Shape := ⟨1, ![512]⟩
abbrev S4x512x512 : Shape := ⟨3, ![4, 512, 512]⟩
abbrev S4x512 : Shape := ⟨2, ![4, 512]⟩
abbrev S1x512 : Shape := ⟨2, ![1, 512]⟩
abbrev S128x512 : Shape := ⟨2, ![128, 512]⟩
abbrev S128 : Shape := ⟨1, ![128]⟩
abbrev S128x1 : Shape := ⟨2, ![128, 1]⟩
abbrev S1x512x512 : Shape := ⟨3, ![1, 512, 512]⟩

abbrev nBuf : Space → Nat
  | .hbm => 9
  | .vmem => 10
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512x512, .f32⟩
  | .hbm, ⟨5, _⟩ => ⟨S4x512x512, .f32⟩
  | .hbm, ⟨6, _⟩ => ⟨S4x512, .f32⟩
  | .hbm, ⟨7, _⟩ => ⟨S1x512, .f32⟩
  | .hbm, ⟨8, _⟩ => ⟨S512x512, .f32⟩
  | .local _ .vmem, ⟨0, _⟩ => ⟨S128x512, .f32⟩
  | .local _ .vmem, ⟨1, _⟩ => ⟨S128x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S512x512, .f32⟩
  | .local _ .vmem, ⟨6, _⟩ => ⟨S4x512x512, .f32⟩
  | .local _ .vmem, ⟨7, _⟩ => ⟨S4x512, .f32⟩
  | .local _ .vmem, ⟨8, _⟩ => ⟨S128x512, .f32⟩
  | .local _ .vmem, ⟨9, _⟩ => ⟨S128x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S512_S1x512 : S512.ShapeCasts S1x512
  inb_S128x512_S128x512_0_0 : ∀ a, (![0, 0] : Fin 2 → Nat) a + S128x512.size a ≤ S128x512.size a
  h_S128x512 : 0 < S128x512.numel
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  reduces_S128x512_S128 : S128x512.Reduces [1] S128
  shapeCasts_S128_S128x1 : S128.ShapeCasts S128x1
  broadcasts_S128x1_S128x512 : S128x1.Broadcasts S128x512
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  inb_S4x512_S1x512_0_0 : ∀ a, (![0, 0] : Fin 2 → Nat) a + S1x512.size a ≤ S4x512.size a
  shapeCasts_S1x512_S512 : S1x512.ShapeCasts S512
  inb_S4x512x512_S1x512x512_1_0_0 : ∀ a, (![1, 0, 0] : Fin 3 → Nat) a + S1x512x512.size a ≤ S4x512x512.size a
  inb_S4x512_S1x512_1_0 : ∀ a, (![1, 0] : Fin 2 → Nat) a + S1x512.size a ≤ S4x512.size a
  inb_S4x512x512_S1x512x512_2_0_0 : ∀ a, (![2, 0, 0] : Fin 3 → Nat) a + S1x512x512.size a ≤ S4x512x512.size a
  inb_S4x512_S1x512_2_0 : ∀ a, (![2, 0] : Fin 2 → Nat) a + S1x512.size a ≤ S4x512.size a
  inb_S4x512x512_S1x512x512_3_0_0 : ∀ a, (![3, 0, 0] : Fin 3 → Nat) a + S1x512x512.size a ≤ S4x512x512.size a
  inb_S4x512_S1x512_3_0 : ∀ a, (![3, 0] : Fin 2 → Nat) a + S1x512.size a ≤ S4x512.size a
  dot_S128x512_S512x512_S128x512_1_0_0_1_n_n_wf : DotDims.WF S128x512 S512x512 S128x512 [1] [0] [0] [1] [] []
  dot_S128x512_S512x512_S128x512_1_1_0_0_n_n_wf : DotDims.WF S128x512 S512x512 S128x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S512x512.size a
  hwx0_0 : ∀ i : grid0.Coords, EltTy.bits .f32 = 32 ∨ (Rect.block (s := S512x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x512x512.size a ≤ S4x512x512.size a
  hwx0_5 : ∀ i : grid0.Coords, EltTy.bits .f32 = 32 ∨ (Rect.block (s := S4x512x512) S4x512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x512.size a ≤ S4x512.size a
  hwx0_6 : ∀ i : grid0.Coords, EltTy.bits .f32 = 32 ∨ (Rect.block (s := S4x512) S4x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x512.size a ≤ S512x512.size a
  hwx0_7 : ∀ i : grid0.Coords, EltTy.bits .f32 = 32 ∨ (Rect.block (s := S512x512) S128x512.size (cc0_transform_7 i) (hinb0_7 i)).WholeWords (EltTy.packing .f32)

variable [Facts₀]

def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x512_S128x512_1_1_0_0_n_n : DotDims S128x512 S512x512 S128x512 where
  lhsContracting := [1]
  rhsContracting := [1]
  lhsNonContracting := [0]
  rhsNonContracting := [0]
  lhsBatch := []
  rhsBatch := []
  wf := dot_S128x512_S512x512_S128x512_1_1_0_0_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S128x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S512x512 : Shape := ⟨2, ![512, 512]⟩
abbrev S512 : Shape := ⟨1, ![512]⟩
abbrev S4x512x512 : Shape := ⟨3, ![4, 512, 512]⟩
abbrev S4x512 : Shape := ⟨2, ![4, 512]⟩
abbrev S1x512 : Shape := ⟨2, ![1, 512]⟩
abbrev S512x512x1 : Shape := ⟨3, ![512, 512, 1]⟩
abbrev S512x1x512 : Shape := ⟨3, ![512, 1, 512]⟩
abbrev S512x512x512 : Shape := ⟨3, ![512, 512, 512]⟩
abbrev S_ : Shape := ⟨0, ![]⟩
abbrev S1x512x512 : Shape := ⟨3, ![1, 512, 512]⟩

abbrev nBuf : Space → Nat
  | .hbm => 75
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512x512, .f32⟩
  | .hbm, ⟨5, _⟩ => ⟨S4x512x512, .f32⟩
  | .hbm, ⟨6, _⟩ => ⟨S4x512, .f32⟩
  | .hbm, ⟨7, _⟩ => ⟨S512x512, .f32⟩
  | .hbm, ⟨8, _⟩ => ⟨S1x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S512x512x1, .f32⟩
  | .hbm, ⟨13, _⟩ => ⟨S512x1x512, .f32⟩
  | .hbm, ⟨14, _⟩ => ⟨S512x512x512, .f32⟩
  | .hbm, ⟨15, _⟩ => ⟨S512x512x512, .f32⟩
  | .hbm, ⟨16, _⟩ => ⟨S512x512x512, .f32⟩
  | .hbm, ⟨17, _⟩ => ⟨S512x512x512, .f32⟩
  | .hbm, ⟨18, _⟩ => ⟨S_, .f32⟩
  | .hbm, ⟨19, _⟩ => ⟨S512x512, .f32⟩
  | .hbm, ⟨20, _⟩ => ⟨S_, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S_, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S1x512x512, .f32⟩
  | .hbm, ⟨29, _⟩ => ⟨S512x512, .f32⟩
  | .hbm, ⟨30, _⟩ => ⟨S512x512, .f32⟩
  | .hbm, ⟨31, _⟩ => ⟨S512x512, .f32⟩
  | .hbm, ⟨32, _⟩ => ⟨S1x512, .f32⟩
  | .hbm, ⟨33, _⟩ => ⟨S512, .f32⟩
  | .hbm, ⟨34, _⟩ => ⟨S1x512, .f32⟩
  | .hbm, ⟨35, _⟩ => ⟨S512x512, .f32⟩
  | .hbm, ⟨36, _⟩ => ⟨S512x512, .f32⟩
  | .hbm, ⟨37, _⟩ => ⟨S_, .f32⟩
  | .hbm, ⟨38, _⟩ => ⟨S512x512, .f32⟩
  | .hbm, ⟨39, _⟩ => ⟨S512x512, .f32⟩
  | .hbm, ⟨40, _⟩ => ⟨S1x512x512, .f32⟩
  | .hbm, ⟨41, _⟩ => ⟨S512x512, .f32⟩
  | .hbm, ⟨42, _⟩ => ⟨S512x512, .f32⟩
  | .hbm, ⟨43, _⟩ => ⟨S512x512, .f32⟩
  | .hbm, ⟨44, _⟩ => ⟨S1x512, .f32⟩
  | .hbm, ⟨45, _⟩ => ⟨S512, .f32⟩
  | .hbm, ⟨46, _⟩ => ⟨S1x512, .f32⟩
  | .hbm, ⟨47, _⟩ => ⟨S512x512, .f32⟩
  | .hbm, ⟨48, _⟩ => ⟨S512x512, .f32⟩
  | .hbm, ⟨49, _⟩ => ⟨S_, .f32⟩
  | .hbm, ⟨50, _⟩ => ⟨S512x512, .f32⟩
  | .hbm, ⟨51, _⟩ => ⟨S512x512, .f32⟩
  | .hbm, ⟨52, _⟩ => ⟨S1x512x512, .f32⟩
  | .hbm, ⟨53, _⟩ => ⟨S512x512, .f32⟩
  | .hbm, ⟨54, _⟩ => ⟨S512x512, .f32⟩
  | .hbm, ⟨55, _⟩ => ⟨S512x512, .f32⟩
  | .hbm, ⟨56, _⟩ => ⟨S1x512, .f32⟩
  | .hbm, ⟨57, _⟩ => ⟨S512, .f32⟩
  | .hbm, ⟨58, _⟩ => ⟨S1x512, .f32⟩
  | .hbm, ⟨59, _⟩ => ⟨S512x512, .f32⟩
  | .hbm, ⟨60, _⟩ => ⟨S512x512, .f32⟩
  | .hbm, ⟨61, _⟩ => ⟨S_, .f32⟩
  | .hbm, ⟨62, _⟩ => ⟨S512x512, .f32⟩
  | .hbm, ⟨63, _⟩ => ⟨S512x512, .f32⟩
  | .hbm, ⟨64, _⟩ => ⟨S1x512x512, .f32⟩
  | .hbm, ⟨65, _⟩ => ⟨S512x512, .f32⟩
  | .hbm, ⟨66, _⟩ => ⟨S512x512, .f32⟩
  | .hbm, ⟨67, _⟩ => ⟨S512x512, .f32⟩
  | .hbm, ⟨68, _⟩ => ⟨S1x512, .f32⟩
  | .hbm, ⟨69, _⟩ => ⟨S512, .f32⟩
  | .hbm, ⟨70, _⟩ => ⟨S1x512, .f32⟩
  | .hbm, ⟨71, _⟩ => ⟨S512x512, .f32⟩
  | .hbm, ⟨72, _⟩ => ⟨S512x512, .f32⟩
  | .hbm, ⟨73, _⟩ => ⟨S512x512, .f32⟩
  | .hbm, ⟨74, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_cst : Ref sig .tc := ⟨.hbm, 37, rfl⟩
abbrev main_call0_v0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call1_cst : Ref sig .tc := ⟨.hbm, 49, rfl⟩
abbrev main_call1_v0 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_call2_cst : Ref sig .tc := ⟨.hbm, 61, rfl⟩
abbrev main_call2_v0 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  reducesTo_S512x512x512_S512x512_d1 : S512x512x512.ReducesTo [1] S512x512
  h_S_ : 0 < S_.numel
  bcast_S_S512x512 : S_.BroadcastsInDim S512x512 (![] : Fin 0 → Fin S512x512.rank)
  slices_S4x512x512_S1x512x512_0_0_0 : S4x512x512.Slices ![0, 0, 0] S1x512x512
  shapeCasts_S1x512x512_S512x512 : S1x512x512.ShapeCasts S512x512
  transposes_S512x512_S512x512_1_0 : S512x512.Transposes [1, 0] S512x512
  slices_S4x512_S1x512_0_0 : S4x512.Slices ![0, 0] S1x512
  shapeCasts_S1x512_S512 : S1x512.ShapeCasts S512
  slices_S4x512x512_S1x512x512_1_0_0 : S4x512x512.Slices ![1, 0, 0] S1x512x512
  slices_S4x512_S1x512_1_0 : S4x512.Slices ![1, 0] S1x512
  slices_S4x512x512_S1x512x512_2_0_0 : S4x512x512.Slices ![2, 0, 0] S1x512x512
  slices_S4x512_S1x512_2_0 : S4x512.Slices ![2, 0] S1x512
  slices_S4x512x512_S1x512x512_3_0_0 : S4x512x512.Slices ![3, 0, 0] S1x512x512
  slices_S4x512_S1x512_3_0 : S4x512.Slices ![3, 0] S1x512
  dot_S512x512_S512x512_S512x512_1_0_0_1_n_n_wf : DotDims.WF S512x512 S512x512 S512x512 [1] [0] [0] [1] [] []

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

class Facts : Prop extends Facts₀ where

variable [Facts]
-- ==== Proof.LibRowDot.lean ====
/-
  A plain two-dimensional contraction read at an index. For dimension numbers that contract the left
  operand's last axis with the right operand's first axis and have no batch axes — the numbers of an
  ordinary matrix product `[n, d] × [d, h] → [n, h]` — the sum over the contraction index, at the
  result index `j`, is the sum over `k : Fin d` of the left operand at `(j 0, k)` times the right
  operand at `(k, j 1)`: row `j 0` of the left matrix against column `j 1` of the right one
  (`rowDot`). Stated for ANY such dimension-number record, from equations naming its six lists, so it
  serves a kernel's matrix product on a block of rows and the host's product on a whole array alike.
-/
import Idealize.ShloMosaic.Lib.ValueIdx
import Idealize.ShloMosaic.PureOps.Ideal.Laws

noncomputable section

open scoped BigOperators

namespace Cert.LibRowDot

open Idealize.ShloMosaic Idealize.ShloMosaic.ValueIdx

/-- A matrix of extended reals with `n` rows and `d` columns, as a function of its rank-2 index. -/
abbrev Mat (n d : ℕ) : Type := (⟨2, ![n, d]⟩ : Shape).Idx → EReal

/-- Row `r` of `a` against column `q` of `w`: `∑ k, a (r, k) · w (k, q)`. -/
def rowDot {n d h : ℕ} (a : Mat n d) (w : Mat d h) (r : Fin n) (q : Fin h) : EReal :=
  ∑ k : Fin d, a (ix2 r k) * w (ix2 k q)

section Plain

variable {n d h : ℕ} (D : DotDims ⟨2, ![n, d]⟩ ⟨2, ![d, h]⟩ ⟨2, ![n, h]⟩)

/-- One contracting axis: the contraction shape has rank one. -/
theorem contr_rank (hlc : D.lhsContracting = [1]) : D.contr.rank = 1 := by
  rw [D.rank_contr, hlc]; rfl

/-- Its one axis has the left operand's column count. -/
theorem contr_size (hlc : D.lhsContracting = [1]) :
    D.contr.size ⟨0, by rw [contr_rank D hlc]; exact Nat.one_pos⟩ = d := by
  have h := D.size_contr 0 (by rw [hlc]; exact Nat.one_pos)
  rw [h]
  simp only [hlc, List.getElem_cons_zero]
  rfl

private theorem coord_congr {m : ℕ} {sz : Fin m → ℕ} (j : (a : Fin m) → Fin (sz a)) :
    ∀ (p q : ℕ) (hp : p < m) (hq : q < m), p = q → (j ⟨p, hp⟩).val = (j ⟨q, hq⟩).val :=
  fun p q hp hq e => by subst e; rfl

/-- The left operand's row coordinate is the result's row coordinate. -/
theorem lhs_row (hln : D.lhsNonContracting = [0]) (hlb : D.lhsBatch = [])
    (j : (⟨2, ![n, h]⟩ : Shape).Idx) (k : D.contr.Idx) : (D.lhsIdx j k 0).val = (j 0).val := by
  have hb : (0 : Fin (⟨2, ![n, d]⟩ : Shape).rank) ∉ D.lhsBatch := by rw [hlb]; exact List.not_mem_nil
  have hn : (0 : Fin (⟨2, ![n, d]⟩ : Shape).rank) ∈ D.lhsNonContracting := by rw [hln]; exact List.mem_singleton.mpr rfl
  unfold DotDims.lhsIdx
  rw [dif_neg hb, dif_pos hn]
  simp only [Fin.val_cast]
  exact coord_congr j _ _ _ _ (by simp [hlb, hln])

/-- The left operand's column coordinate is the contraction index's one coordinate. -/
theorem lhs_col (hlc : D.lhsContracting = [1]) (j : (⟨2, ![n, h]⟩ : Shape).Idx) (k : D.contr.Idx) :
    (D.lhsIdx j k 1).val = (k ⟨0, by rw [contr_rank D hlc]; exact Nat.one_pos⟩).val :=
  D.lhsIdx_val_of_single hlc j k

/-- The right operand's row coordinate is the contraction index's one coordinate. -/
theorem rhs_row (hlc : D.lhsContracting = [1]) (hrc : D.rhsContracting = [0]) (j : (⟨2, ![n, h]⟩ : Shape).Idx)
    (k : D.contr.Idx) : (D.rhsIdx j k 0).val = (k ⟨0, by rw [contr_rank D hlc]; exact Nat.one_pos⟩).val :=
  D.rhsIdx_val_of_single hrc j k

/-- The right operand's column coordinate is the result's column coordinate. -/
theorem rhs_col (hln : D.lhsNonContracting = [0]) (hrn : D.rhsNonContracting = [1]) (hlb : D.lhsBatch = [])
    (hrb : D.rhsBatch = []) (j : (⟨2, ![n, h]⟩ : Shape).Idx) (k : D.contr.Idx) :
    (D.rhsIdx j k 1).val = (j 1).val := by
  have hb : (1 : Fin (⟨2, ![d, h]⟩ : Shape).rank) ∉ D.rhsBatch := by rw [hrb]; exact List.not_mem_nil
  have hn : (1 : Fin (⟨2, ![d, h]⟩ : Shape).rank) ∈ D.rhsNonContracting := by rw [hrn]; exact List.mem_singleton.mpr rfl
  unfold DotDims.rhsIdx
  rw [dif_neg hb, dif_pos hn]
  simp only [Fin.val_cast]
  exact coord_congr j _ _ _ _ (by simp [hlb, hln, hrn])

/-- THE CONTRACTION AS A ROW AGAINST A COLUMN: the sum over the record's contraction index is `rowDot`. -/
theorem sum_contr_eq_rowDot (hlc : D.lhsContracting = [1]) (hrc : D.rhsContracting = [0])
    (hln : D.lhsNonContracting = [0]) (hrn : D.rhsNonContracting = [1]) (hlb : D.lhsBatch = [])
    (hrb : D.rhsBatch = []) (l : Mat n d) (r : Mat d h) (j : (⟨2, ![n, h]⟩ : Shape).Idx) :
    ∑ k : D.contr.Idx, l (D.lhsIdx j k) * r (D.rhsIdx j k) = rowDot l r (j 0) (j 1) := by
  unfold rowDot
  rw [← Equiv.sum_comp (contrEquiv1 D d (contr_rank D hlc) (contr_size D hlc)).symm]
  refine Finset.sum_congr rfl fun k _ => ?_
  have hk := contrEquiv1_symm_val D d (contr_rank D hlc) (contr_size D hlc) k
  have el : D.lhsIdx j ((contrEquiv1 D d (contr_rank D hlc) (contr_size D hlc)).symm k) = ix2 (j 0) k := by
    funext a; apply Fin.ext
    match a with
    | ⟨0, _⟩ => exact lhs_row D hln hlb _ _
    | ⟨1, _⟩ => exact (lhs_col D hlc _ _).trans hk
  have er : D.rhsIdx j ((contrEquiv1 D d (contr_rank D hlc) (contr_size D hlc)).symm k) = ix2 k (j 1) := by
    funext a; apply Fin.ext
    match a with
    | ⟨0, _⟩ => exact (rhs_row D hlc hrc _ _).trans hk
    | ⟨1, _⟩ => exact rhs_col D hln hrn hlb hrb _ _
  exact congrArg₂ (· * ·) (congrArg l el) (congrArg r er)

/-- A kernel's matrix product into a zero accumulator, at the ideal values, read at an index. -/
theorem matmul_zero_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (l : FVec Ideal ⟨2, ![n, d]⟩ .f32)
    (r : FVec Ideal ⟨2, ![d, h]⟩ .f32) (j : (⟨2, ![n, h]⟩ : Shape).Idx) :
    FloatOps.matmul D prec l r (constant ⟨2, ![n, h]⟩ .f32 0x00000000#32) j = rowDot l r (j 0) (j 1) := by
  rw [Ideal.matmul_constant_zero_apply]
  exact sum_contr_eq_rowDot D hlc hrc hln hrn hlb hrb l r j

/-- The host's matrix product, at the ideal values, read at an index. -/
theorem dotGeneral_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (sched : HostSchedule)
    (l : FVec Ideal ⟨2, ![n, d]⟩ .f32) (r : FVec Ideal ⟨2, ![d, h]⟩ .f32) (j : (⟨2, ![n, h]⟩ : Shape).Idx) :
    FloatOps.dotGeneral D prec sched l r j = rowDot l r (j 0) (j 1) := by
  rw [Ideal.dotGeneral_apply]
  exact sum_contr_eq_rowDot D hlc hrc hln hrn hlb hrb l r j

end Plain

end Cert.LibRowDot

end
-- ==== Proof.LibRowDotT.lean ====
/-
  A contraction of two matrices along the LAST axis of both, read at an index. For dimension numbers
  that contract the left operand's last axis with the right operand's last axis and have no batch
  axes — the numbers of a product with the right operand transposed, `[n, d] × [h, d] → [n, h]` — the
  sum over the contraction index, at the result index `j`, is the sum over `k : Fin d` of the left
  operand at `(j 0, k)` times the right operand at `(j 1, k)`: row `j 0` of the left matrix against
  ROW `j 1` of the right one. Stated for any such dimension-number record, from equations naming its
  six lists.
-/
import proofs.«121078_j53901839565364_1_alg».proof.Proof.LibRowDot

noncomputable section

open scoped BigOperators

namespace Cert.LibRowDotT

open Idealize.ShloMosaic Idealize.ShloMosaic.ValueIdx Cert.LibRowDot

/-- Row `r` of `a` against ROW `q` of `w`: `∑ k, a (r, k) · w (q, k)`. -/
def rowDotT {n d h : ℕ} (a : Mat n d) (w : Mat h d) (r : Fin n) (q : Fin h) : EReal :=
  ∑ k : Fin d, a (ix2 r k) * w (ix2 q k)

section Transposed

variable {n d h : ℕ} (D : DotDims ⟨2, ![n, d]⟩ ⟨2, ![h, d]⟩ ⟨2, ![n, h]⟩)

/-- One contracting axis: the contraction shape has rank one. -/
theorem contrT_rank (hlc : D.lhsContracting = [1]) : D.contr.rank = 1 := by
  rw [D.rank_contr, hlc]; rfl

/-- Its one axis has the left operand's column count. -/
theorem contrT_size (hlc : D.lhsContracting = [1]) :
    D.contr.size ⟨0, by rw [contrT_rank D hlc]; exact Nat.one_pos⟩ = d := by
  have h := D.size_contr 0 (by rw [hlc]; exact Nat.one_pos)
  rw [h]
  simp only [hlc, List.getElem_cons_zero]
  rfl

private theorem coordT_congr {m : ℕ} {sz : Fin m → ℕ} (j : (a : Fin m) → Fin (sz a)) :
    ∀ (p q : ℕ) (hp : p < m) (hq : q < m), p = q → (j ⟨p, hp⟩).val = (j ⟨q, hq⟩).val :=
  fun p q hp hq e => by subst e; rfl

/-- The left operand's row coordinate is the result's row coordinate. -/
theorem lhsT_row (hln : D.lhsNonContracting = [0]) (hlb : D.lhsBatch = [])
    (j : (⟨2, ![n, h]⟩ : Shape).Idx) (k : D.contr.Idx) : (D.lhsIdx j k 0).val = (j 0).val := by
  have hb : (0 : Fin (⟨2, ![n, d]⟩ : Shape).rank) ∉ D.lhsBatch := by rw [hlb]; exact List.not_mem_nil
  have hn : (0 : Fin (⟨2, ![n, d]⟩ : Shape).rank) ∈ D.lhsNonContracting := by rw [hln]; exact List.mem_singleton.mpr rfl
  unfold DotDims.lhsIdx
  rw [dif_neg hb, dif_pos hn]
  simp only [Fin.val_cast]
  exact coordT_congr j _ _ _ _ (by simp [hlb, hln])

/-- The left operand's column coordinate is the contraction index's one coordinate. -/
theorem lhsT_col (hlc : D.lhsContracting = [1]) (j : (⟨2, ![n, h]⟩ : Shape).Idx) (k : D.contr.Idx) :
    (D.lhsIdx j k 1).val = (k ⟨0, by rw [contrT_rank D hlc]; exact Nat.one_pos⟩).val :=
  D.lhsIdx_val_of_single hlc j k

/-- The right operand's ROW coordinate is the result's column coordinate. -/
theorem rhsT_row (hln : D.lhsNonContracting = [0]) (hrn : D.rhsNonContracting = [0]) (hlb : D.lhsBatch = [])
    (hrb : D.rhsBatch = []) (j : (⟨2, ![n, h]⟩ : Shape).Idx) (k : D.contr.Idx) :
    (D.rhsIdx j k 0).val = (j 1).val := by
  have hb : (0 : Fin (⟨2, ![h, d]⟩ : Shape).rank) ∉ D.rhsBatch := by rw [hrb]; exact List.not_mem_nil
  have hn : (0 : Fin (⟨2, ![h, d]⟩ : Shape).rank) ∈ D.rhsNonContracting := by rw [hrn]; exact List.mem_singleton.mpr rfl
  unfold DotDims.rhsIdx
  rw [dif_neg hb, dif_pos hn]
  simp only [Fin.val_cast]
  exact coordT_congr j _ _ _ _ (by simp [hlb, hln, hrn])

/-- The right operand's COLUMN coordinate is the contraction index's one coordinate. -/
theorem rhsT_col (hlc : D.lhsContracting = [1]) (hrc : D.rhsContracting = [1]) (j : (⟨2, ![n, h]⟩ : Shape).Idx)
    (k : D.contr.Idx) : (D.rhsIdx j k 1).val = (k ⟨0, by rw [contrT_rank D hlc]; exact Nat.one_pos⟩).val :=
  D.rhsIdx_val_of_single hrc j k

/-- THE CONTRACTION AS A ROW AGAINST A ROW: the sum over the record's contraction index is `rowDotT`. -/
theorem sum_contr_eq_rowDotT (hlc : D.lhsContracting = [1]) (hrc : D.rhsContracting = [1])
    (hln : D.lhsNonContracting = [0]) (hrn : D.rhsNonContracting = [0]) (hlb : D.lhsBatch = [])
    (hrb : D.rhsBatch = []) (l : Mat n d) (r : Mat h d) (j : (⟨2, ![n, h]⟩ : Shape).Idx) :
    ∑ k : D.contr.Idx, l (D.lhsIdx j k) * r (D.rhsIdx j k) = rowDotT l r (j 0) (j 1) := by
  unfold rowDotT
  rw [← Equiv.sum_comp (contrEquiv1 D d (contrT_rank D hlc) (contrT_size D hlc)).symm]
  refine Finset.sum_congr rfl fun k _ => ?_
  have hk := contrEquiv1_symm_val D d (contrT_rank D hlc) (contrT_size D hlc) k
  have el : D.lhsIdx j ((contrEquiv1 D d (contrT_rank D hlc) (contrT_size D hlc)).symm k) = ix2 (j 0) k := by
    funext a; apply Fin.ext
    match a with
    | ⟨0, _⟩ => exact lhsT_row D hln hlb _ _
    | ⟨1, _⟩ => exact (lhsT_col D hlc _ _).trans hk
  have er : D.rhsIdx j ((contrEquiv1 D d (contrT_rank D hlc) (contrT_size D hlc)).symm k) = ix2 (j 1) k := by
    funext a; apply Fin.ext
    match a with
    | ⟨0, _⟩ => exact rhsT_row D hln hrn hlb hrb _ _
    | ⟨1, _⟩ => exact (rhsT_col D hlc hrc _ _).trans hk
  exact congrArg₂ (· * ·) (congrArg l el) (congrArg r er)

/-- A kernel's product with the right operand transposed, into a zero accumulator, at the ideal values, read at an index. -/
theorem matmulT_zero_apply (hlc : D.lhsContracting = [1]) (hrc : D.rhsContracting = [1])
    (hln : D.lhsNonContracting = [0]) (hrn : D.rhsNonContracting = [0]) (hlb : D.lhsBatch = [])
    (hrb : D.rhsBatch = []) (prec : Option ContractPrecision) (l : FVec Ideal ⟨2, ![n, d]⟩ .f32)
    (r : FVec Ideal ⟨2, ![h, d]⟩ .f32) (j : (⟨2, ![n, h]⟩ : Shape).Idx) :
    FloatOps.matmul D prec l r (constant ⟨2, ![n, h]⟩ .f32 0x00000000#32) j = rowDotT l r (j 0) (j 1) := by
  rw [Ideal.matmul_constant_zero_apply]
  exact sum_contr_eq_rowDotT D hlc hrc hln hrn hlb hrb l r j

end Transposed

end Cert.LibRowDotT

end
-- ==== Proof.Spec.lean ====
/-
  The result of the fused factorization-machine kernel as ONE function of its seven argument arrays,
  index by index, over the extended reals.

  Every entry of row `b` of the result depends on `x` only through row `b` of `x`, so the function is
  stated for ONE row `xr : Fin 512 → EReal` first. For a feature column `q`:
    first order   : (xr · W₁)[q] + bias[q]
    second order  : ½ · xw[q]² · (Σᵢ xr[i]² − (Σᵢ xr[i])²),  with xw = xr · W₂
    deep          : h₀ = xr · W_f;  h_{l+1} = max(h_l · M_lᵀ + β_l, 0) for l = 0,1,2;  h₃ · M₃ᵀ + β₃
  and the result is (first + second) + deep. `G x` at `(b, q)` is that function of row `b` of `x`.

  The reference spells the second-order term through the cubic intermediate `xr[i]·xw[q]`:
    ½ · (Σᵢ (xr[i]·xw[q])² − (Σᵢ xr[i]·xw[q])²).
  The two spellings agree when the entries of the row and `xw[q]` are real numbers: pulling the common
  factor `xw[q]` out of both sums is distributivity, which fails at the infinities, so the law is proved
  over real witnesses and carried to the extended reals by the coercion.
-/
import proofs.«121078_j53901839565364_1_alg».proof.Proof.LibRowDotT

noncomputable section

open scoped BigOperators

namespace Cert.FmDeep

open Idealize.ShloMosaic Idealize.ShloMosaic.ValueIdx Cert.LibRowDot

/-- The program's zero literal and its one-half literal, at the ideal values (the same words in both programs). -/
abbrev zW : EReal := Ideal.ofBits .f32 0x00000000#32
abbrev hW : EReal := Ideal.ofBits .f32 0x3F000000#32

/-- The stacked layer weights `[4, 512, 512]` and biases `[4, 512]`, as functions of their indices. -/
abbrev Stack : Type := (⟨3, ![4, 512, 512]⟩ : Shape).Idx → EReal
abbrev Biases : Type := (⟨2, ![4, 512]⟩ : Shape).Idx → EReal
abbrev Row : Type := Fin 512 → EReal

/-- A row against column `q` of a matrix: `∑ k, xr k · W (k, q)`. -/
def dotRow (xr : Row) (W : Mat 512 512) (q : Fin 512) : EReal := ∑ k : Fin 512, xr k * W (ix2 k q)

/-- One linear layer on a row: `(h · M_lᵀ)[q] + β_l[q]`, the weights read as `M_l (q, k)`. -/
def linearRow (W : Stack) (B : Biases) (l : Fin 4) (h : Row) (q : Fin 512) : EReal :=
  (∑ k : Fin 512, h k * W (ix3 l q k)) + B (ix2 l q)

/-- A hidden layer: the linear layer followed by `max(·, z)`, `z` the program's zero literal. -/
def hiddenRow (z : EReal) (W : Stack) (B : Biases) (l : Fin 4) (h : Row) (q : Fin 512) : EReal :=
  max (linearRow W B l h q) z

/-- The deep component of a row. -/
def deepRow (z : EReal) (xr : Row) (Wf : Mat 512 512) (W : Stack) (B : Biases) : Row :=
  linearRow W B 3 (hiddenRow z W B 2 (hiddenRow z W B 1 (hiddenRow z W B 0 (dotRow xr Wf))))

/-- The second-order term as the kernel spells it. -/
def secondRow (half : EReal) (xr : Row) (W2 : Mat 512 512) (q : Fin 512) : EReal :=
  half * (dotRow xr W2 q * dotRow xr W2 q) * ((∑ i : Fin 512, xr i * xr i) - (∑ i : Fin 512, xr i) * (∑ i : Fin 512, xr i))

/-- The second-order term as the reference spells it, through `xr[i] · xw[q]`. -/
def secondRefRow (half : EReal) (xr : Row) (W2 : Mat 512 512) (q : Fin 512) : EReal :=
  half * ((∑ i : Fin 512, (xr i * dotRow xr W2 q) * (xr i * dotRow xr W2 q))
    - (∑ i : Fin 512, xr i * dotRow xr W2 q) * (∑ i : Fin 512, xr i * dotRow xr W2 q))

/-- THE RESULT for one row, in the kernel's arrangement. -/
def rowG (half z : EReal) (xr : Row) (W1 : Mat 512 512) (bias : (⟨1, ![512]⟩ : Shape).Idx → EReal)
    (W2 Wf : Mat 512 512) (W : Stack) (B : Biases) (q : Fin 512) : EReal :=
  ((dotRow xr W1 q + bias (ix1 q)) + secondRow half xr W2 q) + deepRow z xr Wf W B q

/-- The same with the reference's spelling of the second-order term. -/
def rowGRef (half z : EReal) (xr : Row) (W1 : Mat 512 512) (bias : (⟨1, ![512]⟩ : Shape).Idx → EReal)
    (W2 Wf : Mat 512 512) (W : Stack) (B : Biases) (q : Fin 512) : EReal :=
  ((dotRow xr W1 q + bias (ix1 q)) + secondRefRow half xr W2 q) + deepRow z xr Wf W B q

/-- Row `r` of a matrix with 512 columns. -/
def rowOf {n : ℕ} (x : Mat n 512) (r : Fin n) : Row := fun i => x (ix2 r i)

/-- THE RESULT on `n` rows: at `(b, q)` the row function of row `b`. -/
def G {n : ℕ} (half z : EReal) (x : Mat n 512) (W1 : Mat 512 512) (bias : (⟨1, ![512]⟩ : Shape).Idx → EReal)
    (W2 Wf : Mat 512 512) (W : Stack) (B : Biases) : Mat n 512 :=
  fun j => rowG half z (rowOf x (j 0)) W1 bias W2 Wf W B (j 1)

/-! ## The law between the two spellings -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: `Σ (aᵢ w)² − (Σ aᵢ w)² = w² (Σ aᵢ² − (Σ aᵢ)²)`. -/
theorem real_law {ι : Type*} (s : Finset ι) (a : ι → ℝ) (w : ℝ) :
    (∑ i ∈ s, (a i * w) * (a i * w)) - (∑ i ∈ s, a i * w) * (∑ i ∈ s, a i * w)
      = (w * w) * ((∑ i ∈ s, a i * a i) - (∑ i ∈ s, a i) * (∑ i ∈ s, a i)) := by
  have h1 : (∑ i ∈ s, (a i * w) * (a i * w)) = (w * w) * ∑ i ∈ s, a i * a i := by
    rw [Finset.mul_sum]; exact Finset.sum_congr rfl fun i _ => by ring
  have h2 : (∑ i ∈ s, a i * w) = w * ∑ i ∈ s, a i := by
    rw [Finset.mul_sum]; exact Finset.sum_congr rfl fun i _ => by ring
  rw [h1, h2]; ring

/-- A row of reals against a column of reals is a real. -/
theorem dotRow_real (xr : Row) (W : Mat 512 512) (q : Fin 512) (a : Fin 512 → ℝ) (ha : ∀ i, xr i = (a i : EReal))
    (b : Fin 512 → ℝ) (hb : ∀ k, W (ix2 k q) = (b k : EReal)) :
    dotRow xr W q = ((∑ k : Fin 512, a k * b k : ℝ) : EReal) := by
  unfold dotRow
  rw [coe_sum]
  exact Finset.sum_congr rfl fun k _ => by rw [ha k, hb k, EReal.coe_mul]

/-- The two spellings of the second-order term agree where the row and `xw[q]` are real. -/
theorem secondRefRow_eq (half : EReal) (xr : Row) (W2 : Mat 512 512) (q : Fin 512)
    (a : Fin 512 → ℝ) (ha : ∀ i, xr i = (a i : EReal)) (w : ℝ) (hw : dotRow xr W2 q = (w : EReal)) :
    secondRefRow half xr W2 q = secondRow half xr W2 q := by
  unfold secondRefRow secondRow
  simp only [ha, hw]
  simp only [← EReal.coe_mul, ← coe_sum, ← EReal.coe_sub]
  rw [real_law, EReal.coe_mul, mul_assoc]

/-- So the two arrangements of a row's result agree where the row and column `q` of the second-order weights are real. -/
theorem rowGRef_eq (half z : EReal) (xr : Row) (W1 : Mat 512 512) (bias : (⟨1, ![512]⟩ : Shape).Idx → EReal)
    (W2 Wf : Mat 512 512) (W : Stack) (B : Biases) (q : Fin 512)
    (a : Fin 512 → ℝ) (ha : ∀ i, xr i = (a i : EReal)) (b : Fin 512 → ℝ) (hb : ∀ k, W2 (ix2 k q) = (b k : EReal)) :
    rowGRef half z xr W1 bias W2 Wf W B q = rowG half z xr W1 bias W2 Wf W B q := by
  unfold rowGRef rowG
  rw [secondRefRow_eq half xr W2 q a ha _ (dotRow_real xr W2 q a ha b hb)]

end Cert.FmDeep

end
-- ==== Proof.Layout.lean ====
/-
  The layout operations of the kernel body read at an index, over literal shapes: a slab `[1, 512, 512]`
  of the stacked weights and a row `[1, 512]` of the stacked biases loaded at layer `l`; a vector of row
  sums `[n]` cast to a column `[n, 1]`; a column `[n, 1]` broadcast over `[n, b]`.
-/
import Idealize.ShloMosaic.Lib.Pipeline.Value
import Idealize.ShloMosaic.Lib.ValueIdx
import Idealize.ShloMosaic.Lib.ValueLayout

noncomputable section

namespace Cert.FmDeep.Layout

open Idealize.ShloMosaic Idealize.ShloMosaic.ValueIdx

variable {α : Type}

/-- An index of a rank-1 shape is `ix1` of its coordinate. -/
theorem ext1 {n : ℕ} (j : (⟨1, ![n]⟩ : Shape).Idx) (a : Fin n) (h0 : (j 0).val = a.val) : j = ix1 a :=
  funext fun d => Fin.ext (by match d with | ⟨0, _⟩ => exact h0)

/-- An index of a rank-2 shape is `ix2` of its coordinates. -/
theorem ext2 {n0 n1 : ℕ} (j : (⟨2, ![n0, n1]⟩ : Shape).Idx) (a : Fin n0) (b : Fin n1) (h0 : (j 0).val = a.val)
    (h1 : (j 1).val = b.val) : j = ix2 a b :=
  funext fun d => Fin.ext (by match d with | ⟨0, _⟩ => exact h0 | ⟨1, _⟩ => exact h1)

/-- An index of a rank-3 shape is `ix3` of its coordinates. -/
theorem ext3 {n0 n1 n2 : ℕ} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun d => Fin.ext (by match d with | ⟨0, _⟩ => exact h0 | ⟨1, _⟩ => exact h1 | ⟨2, _⟩ => exact h2)

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Layer `l`'s slab of the stacked weights, loaded as `[1, 512, 512]`, reads at `(0, q, k)` the stack at `(l, q, k)`. -/
theorem ld_slab {Val : EltTy → Type} {e : EltTy} (W : (⟨3, ![4, 512, 512]⟩ : Shape).Idx → Val e) (l : Fin 4)
    (inb : ∀ a, (![l.val, 0, 0] : Fin 3 → ℕ) a + (![1, 512, 512] : Fin 3 → ℕ) a ≤ (⟨3, ![4, 512, 512]⟩ : Shape).size a)
    (q k : Fin 512) :
    View.ld W (Rect.unit (s := ⟨3, ![4, 512, 512]⟩) ![l.val, 0, 0] ![1, 512, 512] inb) (ix3 (0 : Fin 1) q k) = W (ix3 l q k) := by
  show W ((Rect.unit (s := ⟨3, ![4, 512, 512]⟩) ![l.val, 0, 0] ![1, 512, 512] inb).emb (ix3 (0 : Fin 1) q k)) = _
  refine congrArg W (funext fun a => Fin.ext ?_)
  match a with
  | ⟨0, _⟩ => show l.val + 1 * 0 = l.val; omega
  | ⟨1, _⟩ => show 0 + 1 * q.val = q.val; omega
  | ⟨2, _⟩ => show 0 + 1 * k.val = k.val; omega

/-- Layer `l`'s row of the stacked biases, loaded as `[1, 512]`, reads at `(0, q)` the stack at `(l, q)`. -/
theorem ld_brow {Val : EltTy → Type} {e : EltTy} (B : (⟨2, ![4, 512]⟩ : Shape).Idx → Val e) (l : Fin 4)
    (inb : ∀ a, (![l.val, 0] : Fin 2 → ℕ) a + (![1, 512] : Fin 2 → ℕ) a ≤ (⟨2, ![4, 512]⟩ : Shape).size a)
    (q : Fin 512) :
    View.ld B (Rect.unit (s := ⟨2, ![4, 512]⟩) ![l.val, 0] ![1, 512] inb) (ix2 (0 : Fin 1) q) = B (ix2 l q) := by
  show B ((Rect.unit (s := ⟨2, ![4, 512]⟩) ![l.val, 0] ![1, 512] inb).emb (ix2 (0 : Fin 1) q)) = _
  refine congrArg B (funext fun a => Fin.ext ?_)
  match a with
  | ⟨0, _⟩ => show l.val + 1 * 0 = l.val; omega
  | ⟨1, _⟩ => show 0 + 1 * q.val = q.val; omega

end Cert.FmDeep.Layout

end
-- ==== Proof.Payload.lean ====
/-
  What the kernel body leaves in its output block, read at an index. The body's one store writes the whole
  `[128, 512]` block; its value at row `p`, column `q` is the row function of row `p` of the `x` block:
  the first-order product plus the bias row, the second-order term from the row's two lane sums and its
  product with the second-order weights, and the four linear layers, each reading layer `l`'s slab of the
  stacked weights as `M_l (q, k)` (the product contracts the LAST axis of both operands) and layer `l`'s row
  of the stacked biases.
-/
import proofs.«121078_j53901839565364_1_alg».proof.Proof.Gen.KernelIdeal.Frame
import proofs.«121078_j53901839565364_1_alg».proof.Proof.Spec
import proofs.«121078_j53901839565364_1_alg».proof.Proof.Layout
import Idealize.ShloMosaic.PureOps.Ideal.Laws
import Idealize.ShloMosaic.Lib.ValueLayout

noncomputable section

open scoped BigOperators

namespace Cert.FmDeep.Payload

open Cert.KernelIdeal Cert.KernelIdeal.Gen Idealize.ShloMosaic Idealize.ShloMosaic.ValueIdx Cert.LibRowDot Cert.LibRowDotT
  Cert.FmDeep Cert.FmDeep.Layout

theorem hz2 : (![0, 0] : Fin 2 → Nat) = fun _ => 0 := funext fun a => by fin_cases a <;> rfl

/-! ## The operations of the body, one by one -/

/-- A product of the `x` block with a whole weight matrix, at `(p, q)`: row `p` against column `q`. -/
theorem mm_apply (a : FVec Ideal S128x512 .f32) (w : FVec Ideal S512x512 .f32) (p : Fin 128) (q : Fin 512) :
    matmul dot_S128x512_S512x512_S128x512_1_0_0_1_n_n none a w (constant S128x512 .f32 0x00000000#32) (ix2 p q)
      = dotRow (rowOf a p) w q :=
  Cert.LibRowDot.matmul_zero_apply (n := 128) (d := 512) (h := 512) dot_S128x512_S512x512_S128x512_1_0_0_1_n_n
    rfl rfl rfl rfl rfl rfl none a w (ix2 p q)

/-- A product with the right operand transposed, at `(p, q)`: row `p` against ROW `q`. -/
theorem mmT_apply (a : FVec Ideal S128x512 .f32) (w : FVec Ideal S512x512 .f32) (p : Fin 128) (q : Fin 512) :
    matmul dot_S128x512_S512x512_S128x512_1_1_0_0_n_n none a w (constant S128x512 .f32 0x00000000#32) (ix2 p q)
      = ∑ k : Fin 512, a (ix2 p k) * w (ix2 q k) :=
  matmulT_zero_apply (n := 128) (d := 512) (h := 512) dot_S128x512_S512x512_S128x512_1_1_0_0_n_n
    rfl rfl rfl rfl rfl rfl none a w (ix2 p q)

/-- A lane sum of a `[128, 512]` value at row `p`: the sum of the row's entries. -/
theorem rowsum_apply (v : FVec Ideal S128x512 .f32) (p : Fin 128) :
    multiReduction .add [1] S128 v 0x00000000#32 reduces_S128x512_S128 (.inl rfl) rfl (ix1 p)
      = ∑ i : Fin 512, v (ix2 p i) := by
  refine (Ideal.multiReduction_add_single v 0x00000000#32 reduces_S128x512_S128 (.inl rfl) rfl (ix1 p)).trans ?_
  refine Finset.sum_congr rfl fun k _ => congrArg v (funext fun a => Fin.ext ?_)
  match a with
  | ⟨0, _⟩ => rfl
  | ⟨1, _⟩ => rfl

/-- The row sums cast to a column and broadcast over the block, at `(p, q)`: row `p`'s sum. -/
theorem colsum_apply (v : FVec Ideal S128x512 .f32) (p : Fin 128) :
    shapeCast S128x1 (multiReduction .add [1] S128 v 0x00000000#32 reduces_S128x512_S128 (.inl rfl) rfl) shapeCasts_S128_S128x1
      (ix2 p (0 : Fin 1)) = ∑ i : Fin 512, v (ix2 p i) :=
  (shapeCast_a_a1_apply _ _ p 0).trans (rowsum_apply v p)

/-- Layer `l`'s weights as the body forms them (the slab loaded, its unit axis dropped), at `(q, k)`. -/
theorem slab_apply (W : Vec Ideal S4x512x512 .f32) (l : Fin 4)
    (inb : ∀ a, (![l.val, 0, 0] : Fin 3 → ℕ) a + S1x512x512.size a ≤ S4x512x512.size a) (q k : Fin 512) :
    shapeCast S512x512 (View.ld W (Rect.unit (s := S4x512x512) ![l.val, 0, 0] S1x512x512.size inb)) shapeCasts_S1x512x512_S512x512
      (ix2 q k) = W (ix3 l q k) :=
  (shapeCast_1ab_ab_apply _ _ q k).trans (ld_slab W l inb q k)

/-- Layer `l`'s bias as the body forms it (the row loaded, flattened, made a row again, broadcast), at `(p, q)`. -/
theorem brow_apply (B : Vec Ideal S4x512 .f32) (l : Fin 4)
    (inb : ∀ a, (![l.val, 0] : Fin 2 → ℕ) a + S1x512.size a ≤ S4x512.size a) (p : Fin 128) (q : Fin 512) :
    broadcastTo S128x512 (shapeCast S1x512 (shapeCast S512 (View.ld B (Rect.unit (s := S4x512) ![l.val, 0] S1x512.size inb))
      shapeCasts_S1x512_S512) shapeCasts_S512_S1x512) broadcasts_S1x512_S128x512 (ix2 p q) = B (ix2 l q) :=
  (broadcastTo_1b_ab_apply _ _ p q).trans ((shapeCast_a_1a_apply _ _ 0 q).trans ((shapeCast_1a_a_apply _ _ q).trans
    (ld_brow B l inb q)))

/-- ONE LINEAR LAYER of the body at `(p, q)`, from what its input holds on row `p`. -/
theorem layer_apply (hv : FVec Ideal S128x512 .f32) (hr : Row) (p : Fin 128) (hh : ∀ k, hv (ix2 p k) = hr k)
    (W : Vec Ideal S4x512x512 .f32) (B : Vec Ideal S4x512 .f32) (l : Fin 4)
    (inbW : ∀ a, (![l.val, 0, 0] : Fin 3 → ℕ) a + S1x512x512.size a ≤ S4x512x512.size a)
    (inbB : ∀ a, (![l.val, 0] : Fin 2 → ℕ) a + S1x512.size a ≤ S4x512.size a) (q : Fin 512) :
    addf (matmul dot_S128x512_S512x512_S128x512_1_1_0_0_n_n none hv
        (shapeCast S512x512 (View.ld W (Rect.unit (s := S4x512x512) ![l.val, 0, 0] S1x512x512.size inbW)) shapeCasts_S1x512x512_S512x512
          : FVec Ideal S512x512 .f32)
        (constant S128x512 .f32 0x00000000#32))
      (broadcastTo S128x512 (shapeCast S1x512 (shapeCast S512 (View.ld B (Rect.unit (s := S4x512) ![l.val, 0] S1x512.size inbB))
        shapeCasts_S1x512_S512 : FVec Ideal S512 .f32) shapeCasts_S512_S1x512) broadcasts_S1x512_S128x512
          : FVec Ideal S128x512 .f32) (ix2 p q)
      = linearRow W B l hr q :=
  congrArg₂ (· + ·)
    ((mmT_apply hv _ p q).trans (Finset.sum_congr rfl fun k _ => congrArg₂ (· * ·) (hh k) (slab_apply W l inbW q k)))
    (brow_apply B l inbB p q)

/-! ## The payloads -/

/-- The first-order term at `(p, q)`. -/
theorem pay2_apply (v0 : Vec Ideal S128x512 .f32) (v1 : Vec Ideal S512x512 .f32) (v3 : Vec Ideal S1x512 .f32)
    (p : Fin 128) (q : Fin 512) :
    k0_pay2 v0 v1 v3 (ix2 p q) = dotRow (rowOf v0 p) v1 q + v3 (ix2 (0 : Fin 1) q) := by
  unfold k0_pay2
  exact congrArg₂ (· + ·) (mm_apply v0 v1 p q)
    ((broadcastTo_1b_ab_apply _ _ p q).trans (congrFun (shapeCast_self v3 _) _))

/-- The second-order term at `(p, q)`. -/
theorem pay3_apply (v0 : Vec Ideal S128x512 .f32) (v7 : Vec Ideal S512x512 .f32) (p : Fin 128) (q : Fin 512) :
    k0_pay3 v0 v7 (ix2 p q) = secondRow hW (rowOf v0 p) v7 q := by
  unfold k0_pay3 secondRow
  refine congrArg₂ (· * ·) (congrArg₂ (· * ·) rfl (congrArg₂ (· * ·) (mm_apply v0 v7 p q) (mm_apply v0 v7 p q))) ?_
  refine (broadcastTo_a1_ab_apply _ _ p q).trans ?_
  exact congrArg₂ (· - ·) (colsum_apply (mulf v0 v0) p) (congrArg₂ (· * ·) (colsum_apply v0 p) (colsum_apply v0 p))

/-- The first hidden layer at `(p, q)`. -/
theorem pay4_apply (v0 : Vec Ideal S128x512 .f32) (v21 : Vec Ideal S512x512 .f32) (W : Vec Ideal S4x512x512 .f32)
    (B : Vec Ideal S4x512 .f32) (p : Fin 128) (q : Fin 512) :
    k0_pay4 v0 v21 (View.ld W r0_3) (View.ld B r0_4) (ix2 p q) = hiddenRow zW W B 0 (dotRow (rowOf v0 p) v21) q := by
  unfold k0_pay4 hiddenRow
  exact congrArg (max · zW) (layer_apply _ (dotRow (rowOf v0 p) v21) p (fun k => mm_apply v0 v21 p k) W B 0 _ _ q)

/-- The remaining layers and the final sum at `(p, q)`, from what the three earlier values hold on row `p`. -/
theorem pay1_apply (v6 v20 v32 : FVec Ideal S128x512 .f32) (W : Vec Ideal S4x512x512 .f32) (B : Vec Ideal S4x512 .f32)
    (p : Fin 128) (q : Fin 512) (a b : EReal) (h6 : v6 (ix2 p q) = a) (h20 : v20 (ix2 p q) = b)
    (hr : Row) (h32 : ∀ k, v32 (ix2 p k) = hr k) :
    k0_pay1 v6 v20 v32 (View.ld W r0_5) (View.ld B r0_6) (View.ld W r0_7) (View.ld B r0_8) (View.ld W r0_9) (View.ld B r0_10)
      (ix2 p q) = (a + b) + linearRow W B 3 (hiddenRow zW W B 2 (hiddenRow zW W B 1 hr)) q := by
  unfold k0_pay1
  refine congrArg₂ (· + ·) (congrArg₂ (· + ·) h6 h20) ?_
  refine layer_apply _ (hiddenRow zW W B 2 (hiddenRow zW W B 1 hr)) p (fun k => ?_) W B 3 _ _ q
  refine congrArg (max · zW) (layer_apply _ (hiddenRow zW W B 1 hr) p (fun k' => ?_) W B 2 _ _ k)
  exact congrArg (max · zW) (layer_apply v32 hr p h32 W B 1 _ _ k')

/-! ## The block -/

/-- THE OUTPUT BLOCK at `(p, q)`: the row function of row `p` of the `x` block. -/
theorem out_apply (x0 : Vec Ideal S128x512 .f32) (x1 : Vec Ideal S512x512 .f32) (x2 : Vec Ideal S1x512 .f32)
    (x3 x4 : Vec Ideal S512x512 .f32) (x5 : Vec Ideal S4x512x512 .f32) (x6 : Vec Ideal S4x512 .f32)
    (bias : S512.Idx → EReal) (hb : ∀ q : Fin 512, x2 (ix2 (0 : Fin 1) q) = bias (ix1 q)) (p : Fin 128) (q : Fin 512) :
    out0_7 x0 x1 x2 x3 x4 x5 x6 (ix2 p q) = rowG hW zW (rowOf x0 p) x1 bias x3 x4 x5 x6 q := by
  have e : out0_7 x0 x1 x2 x3 x4 x5 x6 = k0_pay1 (k0_pay2 x0 x1 x2) (k0_pay3 x0 x3)
      (k0_pay4 x0 x4 (View.ld x5 r0_3) (View.ld x6 r0_4)) (View.ld x5 r0_5) (View.ld x6 r0_6) (View.ld x5 r0_7)
      (View.ld x6 r0_8) (View.ld x5 r0_9) (View.ld x6 r0_10) := by
    unfold out0_7
    rw [View.canon_unit_zero hz2]
    simp only [View.ld_unit_zero (S := S128x512) hz2, View.ld_unit_zero (S := S512x512) hz2,
      View.ld_unit_zero (S := S1x512) hz2]
  rw [e]
  refine (pay1_apply _ _ _ x5 x6 p q _ _ (pay2_apply x0 x1 x2 p q) (pay3_apply x0 x3 p q) _
    (fun k => pay4_apply x0 x4 x5 x6 p k)).trans ?_
  unfold rowG deepRow
  rw [hb q]

end Cert.FmDeep.Payload

end
-- ==== Proof.Blocks.lean ====
/-
  From blocks to the array. The grid has four points; point `t` stages rows `128 t … 128 t + 127` of `x`
  and the whole of every weight array, and writes back rows `128 t … 128 t + 127` of the result. Row `p` of
  the block point `t` writes is the row function of row `p` of the staged block, that is of row `128 t + p`
  of `x`: exactly rows `128 t … 128 t + 127` of the whole-array function `G`. The four blocks tile the
  `[512, 512]` result (row `r` lies in block `r / 128`), so after the run the array is `G` of the arguments.
-/
import proofs.«121078_j53901839565364_1_alg».proof.Proof.Gen.KernelIdeal.Value
import proofs.«121078_j53901839565364_1_alg».proof.Proof.Payload
import Idealize.ShloMosaic.Lib.StableHlo.Run

noncomputable section

namespace Cert.FmDeep.Blocks

open Cert.KernelIdeal Cert.KernelIdeal.Gen Cert.KernelIdeal.Value Idealize.ShloMosaic Idealize.ShloMosaic.TcCoe
  Idealize.SL.Sem Idealize.ShloMosaic.ValueIdx Cert.LibRowDot Cert.FmDeep Cert.FmDeep.Payload Cert.FmDeep.Layout
open Idealize.ShloMosaic.Pipeline (Dat)

variable (m : (ℓ : Loc nD τ sig) → Buf (Elt Ideal) ℓ) (ρ : Dev nD → PrngReg)

/-- THE RESULT ARRAY: `G` of the seven argument arrays as launched. -/
abbrev resultArr (c : Dev nD) : S512x512.Idx → EReal :=
  G hW zW (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The printed index maps, decided over the four points: the `x` window and the output window move with the
    point along the rows; every other window stays at its array's origin. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0 :=
  (by decide +kernel : ∀ t : Fin grid0.N, _)

theorem point_lt (t : Fin cfg0.N) : t.val < 4 := by
  have h := t.isLt
  have hN : cfg0.N = 4 := N_0
  omega

/-! ## What each window's block at a point holds -/

/-- The bias window stages the host's reshape of the bias vector to one row. -/
theorem bias_row (c : Dev nD) : (V m c main_v0 : S1x512.Idx → EReal)
    = shapeCast S1x512 (m ((c : Thread nD τ).loc main_arg2)) shapeCasts_S512_S1x512 := by
  dsimp only [Gen.V, Gen.hostOps0]; after_results; rfl

theorem blk1 (c : Dev nD) (t : Fin cfg0.N) :
    (iblk m c 1 t : S512x512.Idx → EReal) = m ((c : Thread nD τ).loc main_arg1) := by
  obtain ⟨-, -, -, -, e0, e1, -⟩ := idx_facts t
  refine Eq.trans ?_ (V_main_arg1 m c)
  funext y
  show V m c main_arg1 (((cfg0.win 1).blk t).view.emb y) = V m c main_arg1 y
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

theorem blk3 (c : Dev nD) (t : Fin cfg0.N) :
    (iblk m c 3 t : S512x512.Idx → EReal) = m ((c : Thread nD τ).loc main_arg3) := by
  obtain ⟨-, -, -, -, -, -, -, -, e0, e1, -⟩ := idx_facts t
  refine Eq.trans ?_ (V_main_arg3 m c)
  funext y
  show V m c main_arg3 (((cfg0.win 3).blk t).view.emb y) = V m c main_arg3 y
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 512 + 1 * (y 1).val = (y 1).val; omega

theorem blk4 (c : Dev nD) (t : Fin cfg0.N) :
    (iblk m c 4 t : S512x512.Idx → EReal) = m ((c : Thread nD τ).loc main_arg4) := by
  obtain ⟨-, -, -, -, -, -, -, -, -, -, e0, e1, -⟩ := idx_facts t
  refine Eq.trans ?_ (V_main_arg4 m c)
  funext y
  show V m c main_arg4 (((cfg0.win 4).blk t).view.emb y) = V m c main_arg4 y
  refine congrArg _ (funext fun a => Fin.ext ?_)
  match a with
  | ⟨0, _⟩ => show win0_4.index t (0 : Fin 2) * 512 + 1 * (y 0).val = (y 0).val; omega
  | ⟨1, _⟩ => show win0_4.index t (1 : Fin 2) * 512 + 1 * (y 1).val = (y 1).val; omega

theorem blk5 (c : Dev nD) (t : Fin cfg0.N) :
    (iblk m c 5 t : S4x512x512.Idx → EReal) = m ((c : Thread nD τ).loc main_arg5) := by
  obtain ⟨-, -, -, -, -, -, -, -, -, -, -, -, e0, e1, e2, -⟩ := idx_facts t
  refine Eq.trans ?_ (V_main_arg5 m c)
  funext y
  show V m c main_arg5 (((cfg0.win 5).blk t).view.emb y) = V m c main_arg5 y
  refine congrArg _ (funext fun a => Fin.ext ?_)
  match a with
  | ⟨0, _⟩ => show win0_5.index t (0 : Fin 3) * 4 + 1 * (y 0).val = (y 0).val; omega
  | ⟨1, _⟩ => show win0_5.index t (1 : Fin 3) * 512 + 1 * (y 1).val = (y 1).val; omega
  | ⟨2, _⟩ => show win0_5.index t (2 : Fin 3) * 512 + 1 * (y 2).val = (y 2).val; omega

theorem blk6 (c : Dev nD) (t : Fin cfg0.N) :
    (iblk m c 6 t : S4x512.Idx → EReal) = m ((c : Thread nD τ).loc main_arg6) := by
  obtain ⟨-, -, -, -, -, -, -, -, -, -, -, -, -, -, -, e0, e1⟩ := idx_facts t
  refine Eq.trans ?_ (V_main_arg6 m c)
  funext y
  show V m c main_arg6 (((cfg0.win 6).blk t).view.emb y) = V m c main_arg6 y
  refine congrArg _ (funext fun a => Fin.ext ?_)
  match a with
  | ⟨0, _⟩ => show win0_6.index t (0 : Fin 2) * 4 + 1 * (y 0).val = (y 0).val; omega
  | ⟨1, _⟩ => show win0_6.index t (1 : Fin 2) * 512 + 1 * (y 1).val = (y 1).val; omega

/-- The bias block's one row is the bias vector. -/
theorem bias_blk (c : Dev nD) (t : Fin cfg0.N) (q : Fin 512) :
    (iblk m c 2 t : S1x512.Idx → EReal) (ix2 (0 : Fin 1) q) = m ((c : Thread nD τ).loc main_arg2) (ix1 q) := by
  obtain ⟨-, -, -, -, -, -, e0, e1, -⟩ := idx_facts t
  have hemb : ((cfg0.win 2).blk t).view.emb (ix2 (0 : Fin 1) q) = ix2 (0 : Fin 1) q := by
    refine funext fun a => Fin.ext ?_
    match a with
    | ⟨0, _⟩ => show win0_2.index t (0 : Fin 2) * 1 + 1 * 0 = 0; omega
    | ⟨1, _⟩ => show win0_2.index t (1 : Fin 2) * 512 + 1 * q.val = q.val; omega
  show V m c main_v0 (((cfg0.win 2).blk t).view.emb (ix2 (0 : Fin 1) q)) = _
  rw [hemb, bias_row m c]
  exact shapeCast_a_1a_apply _ _ 0 q

/-- Row `p` of the `x` block at point `t` is row `128 t + p` of `x`. -/
theorem row_blk (c : Dev nD) (t : Fin cfg0.N) (p : Fin 128) (r : Fin 512) (hr : r.val = t.val * 128 + p.val) :
    rowOf (iblk m c 0 t : S128x512.Idx → EReal) p = rowOf (m ((c : Thread nD τ).loc main_arg0)) r := by
  obtain ⟨e0, e1, -⟩ := idx_facts t
  funext i
  show V m c main_arg0 (((cfg0.win 0).blk t).view.emb (ix2 p i)) = m ((c : Thread nD τ).loc main_arg0) (ix2 r i)
  rw [V_main_arg0 m c]
  refine congrArg _ (funext fun a => Fin.ext ?_)
  match a with
  | ⟨0, _⟩ => show win0_0.index t (0 : Fin 2) * 128 + 1 * p.val = r.val; omega
  | ⟨1, _⟩ => show win0_0.index t (1 : Fin 2) * 512 + 1 * i.val = i.val; omega

/-! ## What a point writes back -/

/-- POINT `t` WRITES BACK block `t` of the result array. -/
theorem flushed_eq (c : Dev nD) (t : Fin cfg0.N) :
    (dats m 0 c).flushed 7 t = ((cfg0.win 7).blk t).view.read (Elt Ideal) (resultArr m c) := by
  rw [Value.flushed7]
  funext j
  show out0_7 (iblk m c 0 t) (iblk m c 1 t) (iblk m c 2 t) (iblk m c 3 t) (iblk m c 4 t) (iblk m c 5 t) (iblk m c 6 t) j
    = resultArr m c (((cfg0.win 7).blk t).view.emb j)
  have ht := point_lt t
  have hp : (j 0).val < 128 := (j 0).isLt
  obtain ⟨-, -, e0, e1, -⟩ := idx_facts t
  have hemb : ((cfg0.win 7).blk t).view.emb j = ix2 (⟨t.val * 128 + (j 0).val, by omega⟩ : Fin 512) (j 1) := by
    refine funext fun a => Fin.ext ?_
    match a with
    | ⟨0, _⟩ => show win0_7.index t (0 : Fin 2) * 128 + 1 * (j 0).val = t.val * 128 + (j 0).val; omega
    | ⟨1, _⟩ => show win0_7.index t (1 : Fin 2) * 512 + 1 * (j 1).val = (j 1).val; omega
  rw [hemb]
  refine (congrArg (out0_7 (iblk m c 0 t) (iblk m c 1 t) (iblk m c 2 t) (iblk m c 3 t) (iblk m c 4 t) (iblk m c 5 t)
    (iblk m c 6 t)) (eq_ix2 j)).trans ?_
  refine (out_apply (iblk m c 0 t) (iblk m c 1 t) (iblk m c 2 t) (iblk m c 3 t) (iblk m c 4 t) (iblk m c 5 t) (iblk m c 6 t)
    (m ((c : Thread nD τ).loc main_arg2)) (bias_blk m c t) (j 0) (j 1)).trans ?_
  rw [blk1 m c t, blk3 m c t, blk4 m c t, blk5 m c t, blk6 m c t,
    row_blk m c t (j 0) (⟨t.val * 128 + (j 0).val, by omega⟩ : Fin 512) rfl]
  rfl

/-! ## The cover and the array -/

/-- An index of the array is in point `t`'s block iff each coordinate is in the block's range on its axis. -/
theorem mem_blk (t : Fin cfg0.N) (i : S512x512.Idx) :
    i ∈ ((cfg0.win 7).blk t).view.set ↔ ∀ a : Fin 2, win0_7.index t a * S128x512.size a ≤ (i a).val
      ∧ (i a).val < win0_7.index t a * S128x512.size a + S128x512.size a := by
  show i ∈ ((View.whole main_v1).slice (win0_7.rect t)).set ↔ _
  rw [View.set_slice_whole, Rect.mem_set_unit]
  exact Iff.rfl

/-- Every index of the result is in the block of the point `row / 128`. -/
theorem cover (i : S512x512.Idx) :
    ∃ t : Fin cfg0.N, (cfg0.win 7).flush t = true ∧ i ∈ ((cfg0.win 7).blk t).view.set := by
  have hi0 : (i 0).val < 512 := (i 0).isLt
  have hi1 : (i 1).val < 512 := (i 1).isLt
  have hN : cfg0.N = 4 := N_0
  refine ⟨⟨(i 0).val / 128, by rw [hN]; omega⟩, flush0_7 _, ?_⟩
  rw [mem_blk]
  obtain ⟨-, -, e0, e1, -⟩ := idx_facts ⟨(i 0).val / 128, by rw [hN]; omega⟩
  intro a
  match a with
  | ⟨0, _⟩ =>
    show win0_7.index _ (0 : Fin 2) * 128 ≤ (i 0).val ∧ (i 0).val < win0_7.index _ (0 : Fin 2) * 128 + 128
    rw [e0]
    show (i 0).val / 128 * 128 ≤ (i 0).val ∧ (i 0).val < (i 0).val / 128 * 128 + 128
    omega
  | ⟨1, _⟩ =>
    show win0_7.index _ (1 : Fin 2) * 512 ≤ (i 1).val ∧ (i 1).val < win0_7.index _ (1 : Fin 2) * 512 + 512
    rw [e1]
    omega

/-- THE ARRAY after the run is `G` of the arguments. -/
theorem final (c : Dev nD) : (dats m 0 c).arrAt 7 cfg0.N = resultArr m c :=
  (dats m 0 c).arrAt_eq_of_cover 7 (resultArr m c) (fun t _ => flushed_eq m c t) cover

/-- The kernel's run: it ends with the result array at `G` of the arguments, the arguments unchanged. -/
theorem run : θ_run defs (onTc (τ := τ) (main (F := Ideal))) ⟨m, fun _ => 0, ρ⟩ fun r => ∀ c : Dev nD,
      r.2.mem ((c : Thread nD τ).loc main_v1) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.FmDeep.Blocks

end
-- ==== Proof.RefIsSpec.lean ====
/-
  The reference's result, read at an index, is the row function in the reference's arrangement.
  Stage by stage: each matrix product is a row against a column; the cubic intermediate at `(b, k, q)` is
  `x[b,k] · xw[b,q]`, and the two sums over its middle axis start from the zero literal; layer `l`'s
  weights reach the product through a slice at `l`, a reshape that drops the unit axis and a transpose, so
  the product reads them as `M_l (q, k)`; layer `l`'s bias through a slice at `l`, a reshape and two
  broadcasts; a hidden layer ends in `max(·, 0)` with the zero literal.
-/
import proofs.«121078_j53901839565364_1_alg».proof.Proof.Gen.ReferenceIdeal.Read
import proofs.«121078_j53901839565364_1_alg».proof.Proof.Spec
import proofs.«121078_j53901839565364_1_alg».proof.Proof.Layout

noncomputable section

open scoped BigOperators

namespace Cert.FmDeep.Ref

open Cert.ReferenceIdeal Cert.ReferenceIdeal.Read Idealize.ShloMosaic Idealize.ShloMosaic.ValueIdx Cert.LibRowDot
  Cert.FmDeep Cert.FmDeep.Layout

abbrev A2 : Type := (⟨S512x512, .f32⟩ : BufTy).Contents (Elt Ideal)
abbrev A1 : Type := (⟨S512, .f32⟩ : BufTy).Contents (Elt Ideal)
abbrev A3 : Type := (⟨S4x512x512, .f32⟩ : BufTy).Contents (Elt Ideal)
abbrev AB : Type := (⟨S4x512, .f32⟩ : BufTy).Contents (Elt Ideal)

/-! ## One layer, from the facts of its stages -/

/-- A product of an input with a weight stage plus a bias stage, at `(b, q)`, is the linear layer of the input's
    row `b`, once the weight stage is known to read `M_l (q, k)` at `(k, q)` and the bias stage `β_l (q)`. -/
theorem layer_of_stages (hin wT bc : (⟨2, ![512, 512]⟩ : Shape).Idx → EReal) (hr : Row) (W : Stack) (B : Biases)
    (l : Fin 4) (b q : Fin 512) (hi : ∀ k, hin (ix2 b k) = hr k) (hw : ∀ k, wT (ix2 k q) = W (ix3 l q k))
    (hb : bc (ix2 b q) = B (ix2 l q)) :
    (∑ k : Fin 512, hin (ix2 b k) * wT (ix2 k q)) + bc (ix2 b q) = linearRow W B l hr q := by
  unfold linearRow
  rw [hb]
  exact congrArg (· + B (ix2 l q)) (Finset.sum_congr rfl fun k _ => congrArg₂ (· * ·) (hi k) (hw k))

/-! ## The three products with whole weight matrices -/

theorem dot_v0 (x0 x1 : A2) (b q : Fin 512) : val_main_v0 (F := Ideal) x0 x1 (ix2 b q) = dotRow (rowOf x0 b) x1 q :=
  (val_main_v0_apply x0 x1 (ix2 b q)).trans (Finset.sum_congr rfl fun k _ =>
    congrArg₂ (· * ·) (congrArg x0 (ext2 _ b k rfl rfl)) (congrArg x1 (ext2 _ k q rfl rfl)))

theorem dot_v4 (x0 x3 : A2) (b q : Fin 512) : val_main_v4 (F := Ideal) x0 x3 (ix2 b q) = dotRow (rowOf x0 b) x3 q :=
  (val_main_v4_apply x0 x3 (ix2 b q)).trans (Finset.sum_congr rfl fun k _ =>
    congrArg₂ (· * ·) (congrArg x0 (ext2 _ b k rfl rfl)) (congrArg x3 (ext2 _ k q rfl rfl)))

theorem dot_v17 (x0 x4 : A2) (b q : Fin 512) : val_main_v17 (F := Ideal) x0 x4 (ix2 b q) = dotRow (rowOf x0 b) x4 q :=
  (val_main_v17_apply x0 x4 (ix2 b q)).trans (Finset.sum_congr rfl fun k _ =>
    congrArg₂ (· * ·) (congrArg x0 (ext2 _ b k rfl rfl)) (congrArg x4 (ext2 _ k q rfl rfl)))

/-! ## The first-order term -/

theorem bias_v2 (x2 : A1) (b q : Fin 512) : val_main_v2 (F := Ideal) x2 (ix2 b q) = x2 (ix1 q) :=
  (val_main_v2_apply x2 _).trans ((val_main_v1_apply x2 _).trans (congrArg x2 (ext1 _ q rfl)))

theorem first_v3 (x0 x1 : A2) (x2 : A1) (b q : Fin 512) :
    val_main_v3 (F := Ideal) x0 x1 x2 (ix2 b q) = dotRow (rowOf x0 b) x1 q + x2 (ix1 q) :=
  congrArg₂ (· + ·) (dot_v0 x0 x1 b q) (bias_v2 x2 b q)

/-! ## The second-order term -/

/-- The cubic intermediate at `(b, k, q)`. -/
theorem cube_v9 (x0 x3 : A2) (b k q : Fin 512) :
    val_main_v9 (F := Ideal) x0 x3 (ix3 b k q) = x0 (ix2 b k) * dotRow (rowOf x0 b) x3 q :=
  congrArg₂ (· * ·)
    ((val_main_v7_apply x0 _).trans ((val_main_v5_apply x0 _).trans (congrArg x0 (ext2 _ b k rfl rfl))))
    ((val_main_v8_apply x0 x3 _).trans ((val_main_v6_apply x0 x3 _).trans
      ((congrArg (val_main_v4 (F := Ideal) x0 x3) (ext2 _ b q rfl rfl)).trans (dot_v4 x0 x3 b q))))

/-- The two sums start from the zero literal. -/
theorem cst_zero (j : S_.Idx) : val_main_cst (F := Ideal) j = 0 := Ideal.ofBits_zero_f32
theorem cst_0_zero (j : S_.Idx) : val_main_cst_0 (F := Ideal) j = 0 := Ideal.ofBits_zero_f32

/-- The sum of its squares over the middle axis. -/
theorem sum_v11 (x0 x3 : A2) (b q : Fin 512) :
    val_main_v11 (F := Ideal) x0 x3 (ix2 b q)
      = ∑ k : Fin 512, (x0 (ix2 b k) * dotRow (rowOf x0 b) x3 q) * (x0 (ix2 b k) * dotRow (rowOf x0 b) x3 q) := by
  refine (val_main_v11_apply x0 x3 _).trans ?_
  rw [cst_zero, zero_add]
  refine Finset.sum_congr rfl fun k _ => ?_
  rw [show idx_main_v11 (ix2 b q) k = ix3 b k q from ext3 _ b k q rfl rfl rfl]
  exact congrArg₂ (· * ·) (cube_v9 x0 x3 b k q) (cube_v9 x0 x3 b k q)

/-- Its sum over the middle axis. -/
theorem sum_v12 (x0 x3 : A2) (b q : Fin 512) :
    val_main_v12 (F := Ideal) x0 x3 (ix2 b q) = ∑ k : Fin 512, x0 (ix2 b k) * dotRow (rowOf x0 b) x3 q := by
  refine (val_main_v12_apply x0 x3 _).trans ?_
  rw [cst_0_zero, zero_add]
  refine Finset.sum_congr rfl fun k _ => ?_
  rw [show idx_main_v12 (ix2 b q) k = ix3 b k q from ext3 _ b k q rfl rfl rfl]
  exact cube_v9 x0 x3 b k q

theorem half_v15 (i : S512x512.Idx) : val_main_v15 (F := Ideal) i = hW := (val_main_v15_apply i).trans rfl

theorem second_v16 (x0 x3 : A2) (b q : Fin 512) :
    val_main_v16 (F := Ideal) x0 x3 (ix2 b q) = secondRefRow hW (rowOf x0 b) x3 q := by
  unfold secondRefRow
  exact congrArg₂ (· * ·) (half_v15 (ix2 b q)) (congrArg₂ (· - ·) (sum_v11 x0 x3 b q)
    (congrArg₂ (· * ·) (sum_v12 x0 x3 b q) (sum_v12 x0 x3 b q)))

/-! ## Layer 0 -/

theorem w0 (x5 : A3) (k q : Fin 512) : val_main_v20 (F := Ideal) x5 (ix2 k q) = x5 (ix3 0 q k) :=
  (val_main_v20_apply x5 _).trans ((val_main_v19_apply x5 _).trans ((val_main_v18_apply x5 _).trans
    (congrArg x5 (ext3 _ 0 q k rfl
      (by have := q.isLt; have := k.isLt; show (q.val * 512 + k.val) / 512 % 512 = q.val; omega)
      (by have := q.isLt; have := k.isLt; show (q.val * 512 + k.val) % 512 = k.val; omega)))))

theorem b0 (x6 : AB) (b q : Fin 512) : val_main_v25 (F := Ideal) x6 (ix2 b q) = x6 (ix2 0 q) :=
  (val_main_v25_apply x6 _).trans ((val_main_v24_apply x6 _).trans ((val_main_v23_apply x6 _).trans
    ((val_main_v22_apply x6 _).trans (congrArg x6 (ext2 _ 0 q rfl
      (by have := q.isLt; show q.val % 512 = q.val; omega))))))

theorem d0 (x0 x4 : A2) (x5 : A3) (b q : Fin 512) :
    val_main_v21 (F := Ideal) x0 x4 x5 (ix2 b q)
      = ∑ k : Fin 512, val_main_v17 (F := Ideal) x0 x4 (ix2 b k) * val_main_v20 (F := Ideal) x5 (ix2 k q) :=
  (val_main_v21_apply x0 x4 x5 _).trans (Finset.sum_congr rfl fun k _ => congrArg₂ (· * ·)
    (congrArg (val_main_v17 (F := Ideal) x0 x4) (ext2 _ b k rfl rfl))
    (congrArg (val_main_v20 (F := Ideal) x5) (ext2 _ k q rfl rfl)))

theorem lin0 (x0 x4 : A2) (x5 : A3) (x6 : AB) (b q : Fin 512) :
    val_main_v26 (F := Ideal) x0 x4 x5 x6 (ix2 b q) = linearRow x5 x6 0 (dotRow (rowOf x0 b) x4) q :=
  (congrArg (· + val_main_v25 (F := Ideal) x6 (ix2 b q)) (d0 x0 x4 x5 b q)).trans
    (layer_of_stages _ _ _ _ x5 x6 0 b q (fun k => dot_v17 x0 x4 b k) (fun k => w0 x5 k q) (b0 x6 b q))

theorem zero_call0 (i : S512x512.Idx) : val_main_call0_v0 (F := Ideal) i = zW := (val_main_call0_v0_apply i).trans rfl

theorem hid0 (x0 x4 : A2) (x5 : A3) (x6 : AB) (b q : Fin 512) :
    val_main_v27 (F := Ideal) x0 x4 x5 x6 (ix2 b q) = hiddenRow zW x5 x6 0 (dotRow (rowOf x0 b) x4) q :=
  congrArg₂ max (lin0 x0 x4 x5 x6 b q) (zero_call0 (ix2 b q))

/-! ## Layer 1 -/

theorem w1 (x5 : A3) (k q : Fin 512) : val_main_v30 (F := Ideal) x5 (ix2 k q) = x5 (ix3 1 q k) :=
  (val_main_v30_apply x5 _).trans ((val_main_v29_apply x5 _).trans ((val_main_v28_apply x5 _).trans
    (congrArg x5 (ext3 _ 1 q k rfl
      (by have := q.isLt; have := k.isLt; show (q.val * 512 + k.val) / 512 % 512 = q.val; omega)
      (by have := q.isLt; have := k.isLt; show (q.val * 512 + k.val) % 512 = k.val; omega)))))

theorem b1 (x6 : AB) (b q : Fin 512) : val_main_v35 (F := Ideal) x6 (ix2 b q) = x6 (ix2 1 q) :=
  (val_main_v35_apply x6 _).trans ((val_main_v34_apply x6 _).trans ((val_main_v33_apply x6 _).trans
    ((val_main_v32_apply x6 _).trans (congrArg x6 (ext2 _ 1 q rfl
      (by have := q.isLt; show q.val % 512 = q.val; omega))))))

theorem d1 (x0 x4 : A2) (x5 : A3) (x6 : AB) (b q : Fin 512) :
    val_main_v31 (F := Ideal) x0 x4 x5 x6 (ix2 b q)
      = ∑ k : Fin 512, val_main_v27 (F := Ideal) x0 x4 x5 x6 (ix2 b k) * val_main_v30 (F := Ideal) x5 (ix2 k q) :=
  (val_main_v31_apply x0 x4 x5 x6 _).trans (Finset.sum_congr rfl fun k _ => congrArg₂ (· * ·)
    (congrArg (val_main_v27 (F := Ideal) x0 x4 x5 x6) (ext2 _ b k rfl rfl))
    (congrArg (val_main_v30 (F := Ideal) x5) (ext2 _ k q rfl rfl)))

theorem lin1 (x0 x4 : A2) (x5 : A3) (x6 : AB) (b q : Fin 512) :
    val_main_v36 (F := Ideal) x0 x4 x5 x6 (ix2 b q)
      = linearRow x5 x6 1 (hiddenRow zW x5 x6 0 (dotRow (rowOf x0 b) x4)) q :=
  (congrArg (· + val_main_v35 (F := Ideal) x6 (ix2 b q)) (d1 x0 x4 x5 x6 b q)).trans
    (layer_of_stages _ _ _ _ x5 x6 1 b q (fun k => hid0 x0 x4 x5 x6 b k) (fun k => w1 x5 k q) (b1 x6 b q))

theorem zero_call1 (i : S512x512.Idx) : val_main_call1_v0 (F := Ideal) i = zW := (val_main_call1_v0_apply i).trans rfl

theorem hid1 (x0 x4 : A2) (x5 : A3) (x6 : AB) (b q : Fin 512) :
    val_main_v37 (F := Ideal) x0 x4 x5 x6 (ix2 b q)
      = hiddenRow zW x5 x6 1 (hiddenRow zW x5 x6 0 (dotRow (rowOf x0 b) x4)) q :=
  congrArg₂ max (lin1 x0 x4 x5 x6 b q) (zero_call1 (ix2 b q))

/-! ## Layer 2 -/

theorem w2 (x5 : A3) (k q : Fin 512) : val_main_v40 (F := Ideal) x5 (ix2 k q) = x5 (ix3 2 q k) :=
  (val_main_v40_apply x5 _).trans ((val_main_v39_apply x5 _).trans ((val_main_v38_apply x5 _).trans
    (congrArg x5 (ext3 _ 2 q k rfl
      (by have := q.isLt; have := k.isLt; show (q.val * 512 + k.val) / 512 % 512 = q.val; omega)
      (by have := q.isLt; have := k.isLt; show (q.val * 512 + k.val) % 512 = k.val; omega)))))

theorem b2 (x6 : AB) (b q : Fin 512) : val_main_v45 (F := Ideal) x6 (ix2 b q) = x6 (ix2 2 q) :=
  (val_main_v45_apply x6 _).trans ((val_main_v44_apply x6 _).trans ((val_main_v43_apply x6 _).trans
    ((val_main_v42_apply x6 _).trans (congrArg x6 (ext2 _ 2 q rfl
      (by have := q.isLt; show q.val % 512 = q.val; omega))))))

theorem d2 (x0 x4 : A2) (x5 : A3) (x6 : AB) (b q : Fin 512) :
    val_main_v41 (F := Ideal) x0 x4 x5 x6 (ix2 b q)
      = ∑ k : Fin 512, val_main_v37 (F := Ideal) x0 x4 x5 x6 (ix2 b k) * val_main_v40 (F := Ideal) x5 (ix2 k q) :=
  (val_main_v41_apply x0 x4 x5 x6 _).trans (Finset.sum_congr rfl fun k _ => congrArg₂ (· * ·)
    (congrArg (val_main_v37 (F := Ideal) x0 x4 x5 x6) (ext2 _ b k rfl rfl))
    (congrArg (val_main_v40 (F := Ideal) x5) (ext2 _ k q rfl rfl)))

theorem lin2 (x0 x4 : A2) (x5 : A3) (x6 : AB) (b q : Fin 512) :
    val_main_v46 (F := Ideal) x0 x4 x5 x6 (ix2 b q)
      = linearRow x5 x6 2 (hiddenRow zW x5 x6 1 (hiddenRow zW x5 x6 0 (dotRow (rowOf x0 b) x4))) q :=
  (congrArg (· + val_main_v45 (F := Ideal) x6 (ix2 b q)) (d2 x0 x4 x5 x6 b q)).trans
    (layer_of_stages _ _ _ _ x5 x6 2 b q (fun k => hid1 x0 x4 x5 x6 b k) (fun k => w2 x5 k q) (b2 x6 b q))

theorem zero_call2 (i : S512x512.Idx) : val_main_call2_v0 (F := Ideal) i = zW := (val_main_call2_v0_apply i).trans rfl

theorem hid2 (x0 x4 : A2) (x5 : A3) (x6 : AB) (b q : Fin 512) :
    val_main_v47 (F := Ideal) x0 x4 x5 x6 (ix2 b q)
      = hiddenRow zW x5 x6 2 (hiddenRow zW x5 x6 1 (hiddenRow zW x5 x6 0 (dotRow (rowOf x0 b) x4))) q :=
  congrArg₂ max (lin2 x0 x4 x5 x6 b q) (zero_call2 (ix2 b q))

/-! ## Layer 3 (no maximum) -/

theorem w3 (x5 : A3) (k q : Fin 512) : val_main_v50 (F := Ideal) x5 (ix2 k q) = x5 (ix3 3 q k) :=
  (val_main_v50_apply x5 _).trans ((val_main_v49_apply x5 _).trans ((val_main_v48_apply x5 _).trans
    (congrArg x5 (ext3 _ 3 q k rfl
      (by have := q.isLt; have := k.isLt; show (q.val * 512 + k.val) / 512 % 512 = q.val; omega)
      (by have := q.isLt; have := k.isLt; show (q.val * 512 + k.val) % 512 = k.val; omega)))))

theorem b3 (x6 : AB) (b q : Fin 512) : val_main_v55 (F := Ideal) x6 (ix2 b q) = x6 (ix2 3 q) :=
  (val_main_v55_apply x6 _).trans ((val_main_v54_apply x6 _).trans ((val_main_v53_apply x6 _).trans
    ((val_main_v52_apply x6 _).trans (congrArg x6 (ext2 _ 3 q rfl
      (by have := q.isLt; show q.val % 512 = q.val; omega))))))

theorem d3 (x0 x4 : A2) (x5 : A3) (x6 : AB) (b q : Fin 512) :
    val_main_v51 (F := Ideal) x0 x4 x5 x6 (ix2 b q)
      = ∑ k : Fin 512, val_main_v47 (F := Ideal) x0 x4 x5 x6 (ix2 b k) * val_main_v50 (F := Ideal) x5 (ix2 k q) :=
  (val_main_v51_apply x0 x4 x5 x6 _).trans (Finset.sum_congr rfl fun k _ => congrArg₂ (· * ·)
    (congrArg (val_main_v47 (F := Ideal) x0 x4 x5 x6) (ext2 _ b k rfl rfl))
    (congrArg (val_main_v50 (F := Ideal) x5) (ext2 _ k q rfl rfl)))

theorem lin3 (x0 x4 : A2) (x5 : A3) (x6 : AB) (b q : Fin 512) :
    val_main_v56 (F := Ideal) x0 x4 x5 x6 (ix2 b q) = deepRow zW (rowOf x0 b) x4 x5 x6 q :=
  (congrArg (· + val_main_v55 (F := Ideal) x6 (ix2 b q)) (d3 x0 x4 x5 x6 b q)).trans
    (layer_of_stages _ _ _ _ x5 x6 3 b q (fun k => hid2 x0 x4 x5 x6 b k) (fun k => w3 x5 k q) (b3 x6 b q))

/-! ## The result -/

/-- THE REFERENCE'S RESULT at `(b, q)`: the row function of row `b` of `x`, in the reference's arrangement. -/
theorem result_v58 (x0 x1 : A2) (x2 : A1) (x3 x4 : A2) (x5 : A3) (x6 : AB) (b q : Fin 512) :
    val_main_v58 (F := Ideal) x0 x1 x2 x3 x4 x5 x6 (ix2 b q) = rowGRef hW zW (rowOf x0 b) x1 x2 x3 x4 x5 x6 q :=
  congrArg₂ (· + ·) (congrArg₂ (· + ·) (first_v3 x0 x1 x2 b q) (second_v16 x0 x3 b q)) (lin3 x0 x4 x5 x6 b q)

/-- Where the entries of `x` and of the second-order weights are real, the reference's result is `G` of the arguments. -/
theorem result_eq_G (x0 x1 : A2) (x2 : A1) (x3 x4 : A2) (x5 : A3) (x6 : AB)
    (hx : ∀ i, ∃ r : ℝ, x0 i = (r : EReal)) (hw : ∀ i, ∃ r : ℝ, x3 i = (r : EReal)) :
    val_main_v58 (F := Ideal) x0 x1 x2 x3 x4 x5 x6 = G hW zW x0 x1 x2 x3 x4 x5 x6 := by
  choose ax hax using hx
  choose aw haw using hw
  funext i
  obtain ⟨b, q, rfl⟩ : ∃ (b q : Fin 512), i = ix2 b q := ⟨i 0, i 1, eq_ix2 i⟩
  exact (result_v58 x0 x1 x2 x3 x4 x5 x6 b q).trans
    (rowGRef_eq hW zW (rowOf x0 b) x1 x2 x3 x4 x5 x6 q (fun k => ax (ix2 b k)) (fun k => hax (ix2 b k))
      (fun k => aw (ix2 k q)) (fun k => haw (ix2 k q)))

end Cert.FmDeep.Ref

end
-- ==== Proof.Finite.lean ====
/-
  Finiteness of the two arrays the second-order law needs. The precondition says, array by array, that
  every entry's absolute value is below +∞ (the word 0x7F800000); an extended real with `max x (−x) < ⊤`
  is neither infinity, so it is a real number. The seven facts are joined by `and`; the ones used here are
  those of `x` (the first argument) and of the second-order weights (the fourth).
-/
import proofs.«121078_j53901839565364_1_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.FmDeep.Finite

open Idealize.ShloMosaic Cert.Pre_finite_inputs

variable [Facts]

/-- The rank-0 shape has one index. -/
instance : Subsingleton S_.Idx := ⟨fun a b => funext fun d => d.elim0⟩

/-- The word the precondition compares against is +∞. -/
theorem inf_word : Ideal.ofBits .f32 0x7F800000#32 = (⊤ : EReal) := by simp [Ideal.ofBits, Ideal.ieee]

/-- An extended real whose absolute value is below +∞ is a real number. -/
theorem real_of_abs_lt_top (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

/-- Both conjuncts of a pointwise `and` that is 1 at an index are 1 there. -/
theorem both_of_andi {s : Shape} (a b : IVec s 1) (i : s.Idx) (h : andi a b i = 1#1) : a i = 1#1 ∧ b i = 1#1 :=
  IntOp.andi_eq_one.1 h

/-- One array's `jnp.all(|a| < ∞)` being 1 makes every entry of `a` real. -/
theorem real_of_all {s : Shape} (a : FVec Ideal s .f32) (hb : S_.BroadcastsInDim s (![] : Fin 0 → Fin s.rank))
    {axes : List (Fin s.rank)} (hr : s.ReducesTo axes S_) (hu : 0 < S_.numel)
    (e : Host.reduce IntOp.andi (cmpf .olt (Host.absf a) (broadcastInDim s ![] hb (constant S_ .f32 0x7F800000#32)))
      (constantI S_ 1 1#1) hr hu ValueIdx.ix0 = 1#1) (i : s.Idx) : ∃ r : ℝ, a i = (r : EReal) := by
  have hi := Host.reduce_andi_all _ _ hr hu ValueIdx.ix0 e i
  refine real_of_abs_lt_top (a i) ?_
  have hbc : broadcastInDim s ![] hb (constant (F := Ideal) S_ .f32 0x7F800000#32) i = Ideal.ofBits .f32 0x7F800000#32 :=
    broadcastInDim_apply _ hb _ i ValueIdx.ix0 (fun a => a.elim0)
  have hc : cmpf .olt (Host.absf a) (broadcastInDim s ![] hb (constant (F := Ideal) S_ .f32 0x7F800000#32)) i
      = Ideal.cmp .olt (max (a i) (-(a i))) (broadcastInDim s ![] hb (constant (F := Ideal) S_ .f32 0x7F800000#32) i) := rfl
  rw [hc, hbc] at hi
  exact hi

/-- UNDER THE PRECONDITION the entries of the first and of the fourth argument are real numbers. -/
theorem real_entries (a0 a1 : FVec Ideal S512x512 .f32) (a2 : FVec Ideal S512 .f32) (a3 a4 : FVec Ideal S512x512 .f32)
    (a5 : FVec Ideal S4x512x512 .f32) (a6 : FVec Ideal S4x512 .f32)
    (h : fn (F := Ideal) a0 a1 a2 a3 a4 a5 a6 = fun _ => 1#1) :
    (∀ i, ∃ r : ℝ, a0 i = (r : EReal)) ∧ (∀ i, ∃ r : ℝ, a3 i = (r : EReal)) := by
  have h0 := congrFun h ValueIdx.ix0
  dsimp only [fn, fn_part1] at h0
  obtain ⟨h5, -⟩ := both_of_andi _ _ _ h0
  obtain ⟨h4, -⟩ := both_of_andi _ _ _ h5
  obtain ⟨h3, -⟩ := both_of_andi _ _ _ h4
  obtain ⟨h2, hW⟩ := both_of_andi _ _ _ h3
  obtain ⟨h1, -⟩ := both_of_andi _ _ _ h2
  obtain ⟨hX, -⟩ := both_of_andi _ _ _ h1
  exact ⟨real_of_all a0 _ _ _ hX, real_of_all a3 _ _ _ hW⟩

end Cert.FmDeep.Finite

end
-- ==== Proof.lean ====
/-
  A fused factorization-machine layer with a deep component, `[512, 512]` inputs: for a batch row `b` and a
  feature column `q` the kernel computes
      (x · W₁)[b,q] + bias[q]  +  ½ · xw[b,q]² · (Σᵢ x[b,i]² − (Σᵢ x[b,i])²)  +  deep(x)[b,q],   xw = x · W₂,
  in one pass over four blocks of 128 rows, where the reference forms the cubic intermediate
  `x[b,i] · xw[b,q]` and takes  ½ · (Σᵢ (x[b,i]·xw[b,q])² − (Σᵢ x[b,i]·xw[b,q])²).  The deep component — a
  product with the feature weights, three layers `max(h · M_lᵀ + β_l, 0)` and a last linear layer — is the same
  function on both sides: the kernel contracts the last axis of both operands where the reference transposes
  the weights first.

  The two second-order spellings differ by pulling the factor `xw[b,q]` out of two sums. That is
  distributivity, which fails on the extended reals at the infinities, so the precondition is used: finite `x`
  and finite second-order weights make every entry of `x` and of `xw` a real number, and the law holds over
  the reals (Proof/Spec.lean, Proof/Finite.lean). The kernel's result array is read off its run block by block
  (Proof/Payload.lean: a block at an index; Proof/Blocks.lean: the four blocks tile the array), the reference's
  off its run one operation at a time (Proof/RefIsSpec.lean); both are the one function `G` of the arguments.
  The ideal pass rewrote nothing, so `preserves` has no conjunct.
-/
import proofs.«121078_j53901839565364_1_alg».proof.Defs
import proofs.«121078_j53901839565364_1_alg».proof.Proof.Gen.Kernel
import proofs.«121078_j53901839565364_1_alg».proof.Proof.Gen.Kernel.Skeleton
import proofs.«121078_j53901839565364_1_alg».proof.Proof.Gen.Kernel.Launch
import proofs.«121078_j53901839565364_1_alg».proof.Proof.Gen.Kernel.Points
import proofs.«121078_j53901839565364_1_alg».proof.Proof.Gen.Kernel.Frame
import proofs.«121078_j53901839565364_1_alg».proof.Proof.Gen.KernelIdeal
import proofs.«121078_j53901839565364_1_alg».proof.Proof.Gen.KernelIdeal.Skeleton
import proofs.«121078_j53901839565364_1_alg».proof.Proof.Gen.KernelIdeal.Launch
import proofs.«121078_j53901839565364_1_alg».proof.Proof.Gen.KernelIdeal.Points
import proofs.«121078_j53901839565364_1_alg».proof.Proof.Gen.KernelIdeal.Frame
import proofs.«121078_j53901839565364_1_alg».proof.Proof.Gen.ReferenceIdeal
import proofs.«121078_j53901839565364_1_alg».proof.Proof.Gen.Pre_finite_inputs
import proofs.«121078_j53901839565364_1_alg».proof.Proof.Gen.KernelIdeal.Value
import proofs.«121078_j53901839565364_1_alg».proof.Proof.Gen.ReferenceIdeal.Run
import proofs.«121078_j53901839565364_1_alg».proof.Proof.Gen.ReferenceIdeal.Read
import proofs.«121078_j53901839565364_1_alg».proof.Proof.Blocks
import proofs.«121078_j53901839565364_1_alg».proof.Proof.RefIsSpec
import proofs.«121078_j53901839565364_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the result array at `G` of the arguments:
    the kernel by its blocks, the reference by its operations and, for the second-order term, the law over the
    reals that the finite arguments license. -/
theorem algebraic : Cert.algebraic_KernelIdeal_ReferenceIdeal := by
  intro m ρ m' ρ' hpre hagree
  refine ⟨fun c => Cert.FmDeep.Blocks.resultArr m c, Cert.FmDeep.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq]
  obtain ⟨a0, a1, a2, a3, a4, a5, a6⟩ := hagree c
  rw [a0, a1, a2, a3, a4, a5, a6]
  obtain ⟨hx, hw⟩ := Cert.FmDeep.Finite.real_entries _ _ _ _ _ _ _ (hpre c)
  exact Cert.FmDeep.Ref.result_eq_G _ _ _ _ _ _ _ hx hw

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
